-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x64 : Shape := ⟨3, ![16, 2048, 64]⟩
abbrev S16 : Shape := ⟨1, ![16]⟩
abbrev S_ : Shape := ⟨0, ![]⟩

class Facts : Prop where
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel

variable [Facts]

def fn {F : FTy → Type} [FloatOps F] (main_arg0 : FVec F S16x2048x64 .f32) (main_arg1 : FVec F S16x2048x64 .f32) (main_arg2 : FVec F S16x2048x64 .f32) (main_arg3 : IVec S16 32) : IVec S_ 1 :=
  let main_v0 : FVec F S16x2048x64 .f32 := Host.absf main_arg0
  let main_cst : FVec F S_ .f32 := constant S_ .f32 0x7F800000#32
  let main_v1 : FVec F S16x2048x64 .f32 := broadcastInDim S16x2048x64 ![] bcast_S_S16x2048x64 main_cst
  let main_v2 : IVec S16x2048x64 1 := cmpf .olt main_v0 main_v1
  let main_c : IVec S_ 1 := constantI S_ 1 1#1
  let main_v3 : IVec S_ 1 := (fun x v => Host.reduce IntOp.andi x v reducesTo_S16x2048x64_S_d0_1_2 h_S_) main_v2 main_c
  let main_v4 : FVec F S16x2048x64 .f32 := Host.absf main_arg1
  let main_cst_0 : FVec F S_ .f32 := constant S_ .f32 0x7F800000#32
  let main_v5 : FVec F S16x2048x64 .f32 := broadcastInDim S16x2048x64 ![] bcast_S_S16x2048x64 main_cst_0
  let main_v6 : IVec S16x2048x64 1 := cmpf .olt main_v4 main_v5
  let main_c_1 : IVec S_ 1 := constantI S_ 1 1#1
  let main_v7 : IVec S_ 1 := (fun x v => Host.reduce IntOp.andi x v reducesTo_S16x2048x64_S_d0_1_2 h_S_) main_v6 main_c_1
  let main_v8 : IVec S_ 1 := andi main_v3 main_v7
  let main_v9 : FVec F S16x2048x64 .f32 := Host.absf main_arg2
  let main_cst_2 : FVec F S_ .f32 := constant S_ .f32 0x7F800000#32
  let main_v10 : FVec F S16x2048x64 .f32 := broadcastInDim S16x2048x64 ![] bcast_S_S16x2048x64 main_cst_2
  let main_v11 : IVec S16x2048x64 1 := cmpf .olt main_v9 main_v10
  let main_c_3 : IVec S_ 1 := constantI S_ 1 1#1
  let main_v12 : IVec S_ 1 := (fun x v => Host.reduce IntOp.andi x v reducesTo_S16x2048x64_S_d0_1_2 h_S_) main_v11 main_c_3
  let main_v13 : IVec S_ 1 := andi main_v8 main_v12
  main_v13
-- ==== Kernel.lean ====
abbrev S16x2048x64 : Shape := ⟨3, ![16, 2048, 64]⟩
abbrev S16 : Shape := ⟨1, ![16]⟩
abbrev S1x512x64 : Shape := ⟨3, ![1, 512, 64]⟩
abbrev S1x2048x64 : Shape := ⟨3, ![1, 2048, 64]⟩
abbrev S512x64 : Shape := ⟨2, ![512, 64]⟩
abbrev S2048x64 : Shape := ⟨2, ![2048, 64]⟩
abbrev S64x2048 : Shape := ⟨2, ![64, 2048]⟩
abbrev S512x2048 : Shape := ⟨2, ![512, 2048]⟩
abbrev S1 : Shape := ⟨1, ![1]⟩
abbrev S512 : Shape := ⟨1, ![512]⟩
abbrev S512x1 : Shape := ⟨2, ![512, 1]⟩

abbrev nBuf : Space → Nat
  | .hbm => 4
  | .vmem => 8
  | .smem => 1
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16x2048x64, .f32⟩
  | .local _ .vmem, ⟨0, _⟩ => ⟨S1x512x64, .f32⟩
  | .local _ .vmem, ⟨1, _⟩ => ⟨S1x512x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x512x64, .f32⟩
  | .local _ .vmem, ⟨7, _⟩ => ⟨S1x512x64, .f32⟩
  | .local _ .smem, ⟨0, _⟩ => ⟨S16, .i32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v13 : Index := Scalar.indexCast arg0
  ![v13.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  inb_S1x512x64_S1x512x64_0_0_0 : ∀ a, (![0, 0, 0] : Fin 3 → Nat) a + S1x512x64.size a ≤ S1x512x64.size a
  h_S1x512x64 : 0 < S1x512x64.numel
  shapeCasts_S1x512x64_S512x64 : S1x512x64.ShapeCasts S512x64
  bitsLt_bf16_f32 : FTy.bits .bf16 < FTy.bits .f32
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  transposes_S2048x64_p1_0_S64x2048 : S2048x64.Transposes [1, 0] S64x2048
  numel1_S1 : S1.numel = 1
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  shapeCasts_S512x64_S1x512x64 : S512x64.ShapeCasts S1x512x64
  dot_S512x64_S64x2048_S512x2048_1_0_0_1_n_n_wf : DotDims.WF S512x64 S64x2048 S512x2048 [1] [0] [0] [1] [] []
  dot_S512x2048_S2048x64_S512x64_1_0_0_1_n_n_wf : DotDims.WF S512x2048 S2048x64 S512x64 [1] [0] [0] [1] [] []
  hrank0 : 0 < grid0.rank
  k0_off1_inb : ∀ i : grid0.Coords, ∀ a, (k0_off1 i) a + S1.size a ≤ S16.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x64.size a ≤ S16x2048x64.size a
  hwx0_0 : ∀ i : grid0.Coords, EltTy.bits .f32 = 32 ∨ (Rect.block (s := S16x2048x64) S1x512x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S16x2048x64.size a
  hwx0_1 : ∀ i : grid0.Coords, EltTy.bits .f32 = 32 ∨ (Rect.block (s := S16x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S16x2048x64.size a
  hwx0_2 : ∀ i : grid0.Coords, EltTy.bits .f32 = 32 ∨ (Rect.block (s := S16x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x64.size a ≤ S16x2048x64.size a
  hwx0_3 : ∀ i : grid0.Coords, EltTy.bits .f32 = 32 ∨ (Rect.block (s := S16x2048x64) S1x512x64.size (cc0_transform_3 i) (hinb0_3 i)).WholeWords (EltTy.packing .f32)

variable [Facts₀]

def dot_S512x64_S64x2048_S512x2048_1_0_0_1_n_n : DotDims S512x64 S64x2048 S512x2048 where
  lhsContracting := [1]
  rhsContracting := [0]
  lhsNonContracting := [0]
  rhsNonContracting := [1]
  lhsBatch := []
  rhsBatch := []
  wf := dot_S512x64_S64x2048_S512x2048_1_0_0_1_n_n_wf
def dot_S512x2048_S2048x64_S512x64_1_0_0_1_n_n : DotDims S512x2048 S2048x64 S512x64 where
  lhsContracting := [1]
  rhsContracting := [0]
  lhsNonContracting := [0]
  rhsNonContracting := [1]
  lhsBatch := []
  rhsBatch := []
  wf := dot_S512x2048_S2048x64_S512x64_1_0_0_1_n_n_wf

abbrev spec0_0 : Pipeline.WinSpec sig grid0.rank :=
  Pipeline.WinSpec.ofSpec (Memref.whole main_arg0) S1x512x64.size reads0_0 false false 2 stage0_0 sem0_0 nbuf0_0 hstage0_0

abbrev spec0_1 : Pipeline.WinSpec sig grid0.rank :=
  Pipeline.WinSpec.ofSpec (Memref.whole main_arg1) S1x2048x64.size reads0_1 false false 2 stage0_1 sem0_1 nbuf0_1 hstage0_1

abbrev spec0_2 : Pipeline.WinSpec sig grid0.rank :=
  Pipeline.WinSpec.ofSpec (Memref.whole main_arg2) S1x2048x64.size reads0_2 false false 2 stage0_2 sem0_2 nbuf0_2 hstage0_2

abbrev spec0_3 : Pipeline.WinSpec sig grid0.rank :=
  Pipeline.WinSpec.ofSpec (Memref.whole main_v0) S1x512x64.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S16x2048x64 : Shape := ⟨3, ![16, 2048, 64]⟩
abbrev S16 : Shape := ⟨1, ![16]⟩
abbrev S16x2048x2048 : Shape := ⟨3, ![16, 2048, 2048]⟩
abbrev S_ : Shape := ⟨0, ![]⟩
abbrev S2048 : Shape := ⟨1, ![2048]⟩
abbrev S1x1x2048 : Shape := ⟨3, ![1, 1, 2048]⟩
abbrev S16x1x1 : Shape := ⟨3, ![16, 1, 1]⟩
abbrev S16x1x2048 : Shape := ⟨3, ![16, 1, 2048]⟩
abbrev S16x2048 : Shape := ⟨2, ![16, 2048]⟩
abbrev S16x2048x1 : Shape := ⟨3, ![16, 2048, 1]⟩

abbrev nBuf : Space → Nat
  | .hbm => 34
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S16, .i32⟩
  | .hbm, ⟨4, _⟩ => ⟨S16x2048x2048, .f32⟩
  | .hbm, ⟨5, _⟩ => ⟨S_, .f32⟩
  | .hbm, ⟨6, _⟩ => ⟨S_, .f32⟩
  | .hbm, ⟨7, _⟩ => ⟨S16x2048x2048, .f32⟩
  | .hbm, ⟨8, _⟩ => ⟨S16x2048x2048, .f32⟩
  | .hbm, ⟨9, _⟩ => ⟨S2048, .i32⟩
  | .hbm, ⟨10, _⟩ => ⟨S1x1x2048, .i32⟩
  | .hbm, ⟨11, _⟩ => ⟨S16x1x1, .i32⟩
  | .hbm, ⟨12, _⟩ => ⟨S16x1x2048, .i32⟩
  | .hbm, ⟨13, _⟩ => ⟨S16x1x2048, .i32⟩
  | .hbm, ⟨14, _⟩ => ⟨S16x1x2048, .i1⟩
  | .hbm, ⟨15, _⟩ => ⟨S_, .f32⟩
  | .hbm, ⟨16, _⟩ => ⟨S16x2048x2048, .i1⟩
  | .hbm, ⟨17, _⟩ => ⟨S16x2048x2048, .f32⟩
  | .hbm, ⟨18, _⟩ => ⟨S16x2048x2048, .f32⟩
  | .hbm, ⟨19, _⟩ => ⟨S_, .f32⟩
  | .hbm, ⟨20, _⟩ => ⟨S16x2048, .f32⟩
  | .hbm, ⟨21, _⟩ => ⟨S_, .f32⟩
  | .hbm, ⟨22, _⟩ => ⟨S16x2048, .f32⟩
  | .hbm, ⟨23, _⟩ => ⟨S16x2048, .f32⟩
  | .hbm, ⟨24, _⟩ => ⟨S16x2048x1, .f32⟩
  | .hbm, ⟨25, _⟩ => ⟨S16x2048x2048, .f32⟩
  | .hbm, ⟨26, _⟩ => ⟨S16x2048x2048, .f32⟩
  | .hbm, ⟨27, _⟩ => ⟨S16x2048x2048, .f32⟩
  | .hbm, ⟨28, _⟩ => ⟨S_, .f32⟩
  | .hbm, ⟨29, _⟩ => ⟨S16x2048, .f32⟩
  | .hbm, ⟨30, _⟩ => ⟨S16x2048x1, .f32⟩
  | .hbm, ⟨31, _⟩ => ⟨S16x2048x2048, .f32⟩
  | .hbm, ⟨32, _⟩ => ⟨S16x2048x2048, .f32⟩
  | .hbm, ⟨33, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S2048_S1x1x2048_2 : S2048.BroadcastsInDim S1x1x2048 (![2] : Fin 1 → Fin S1x1x2048.rank)
  bcast_S16_S16x1x1_0 : S16.BroadcastsInDim S16x1x1 (![0] : Fin 1 → Fin S16x1x1.rank)
  bcast_S1x1x2048_S16x1x2048_0_1_2 : S1x1x2048.BroadcastsInDim S16x1x2048 (![0, 1, 2] : Fin 3 → Fin S16x1x2048.rank)
  bcast_S16x1x1_S16x1x2048_0_1_2 : S16x1x1.BroadcastsInDim S16x1x2048 (![0, 1, 2] : Fin 3 → Fin S16x1x2048.rank)
  bcast_S16x1x2048_S16x2048x2048_0_1_2 : S16x1x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x64_S16x2048x64_S16x2048x2048_2_2_1_1_0_0_wf : DotDims.WF S16x2048x64 S16x2048x64 S16x2048x2048 [2] [2] [1] [1] [0] [0]
  dot_S16x2048x2048_S16x2048x64_S16x2048x64_2_1_1_2_0_0_wf : DotDims.WF S16x2048x2048 S16x2048x64 S16x2048x64 [2] [1] [1] [2] [0] [0]

variable [Facts₀]

def dot_S16x2048x64_S16x2048x64_S16x2048x2048_2_2_1_1_0_0 : DotDims S16x2048x64 S16x2048x64 S16x2048x2048 where
  lhsContracting := [2]
  rhsContracting := [2]
  lhsNonContracting := [1]
  rhsNonContracting := [1]
  lhsBatch := [0]
  rhsBatch := [0]
  wf := dot_S16x2048x64_S16x2048x64_S16x2048x2048_2_2_1_1_0_0_wf
def dot_S16x2048x2048_S16x2048x64_S16x2048x64_2_1_1_2_0_0 : DotDims S16x2048x2048 S16x2048x64 S16x2048x64 where
  lhsContracting := [2]
  rhsContracting := [1]
  lhsNonContracting := [1]
  rhsNonContracting := [2]
  lhsBatch := [0]
  rhsBatch := [0]
  wf := dot_S16x2048x2048_S16x2048x64_S16x2048x64_2_1_1_2_0_0_wf

class Facts : Prop extends Facts₀ where

variable [Facts]
-- ==== Proof.Spec.lean ====
/-
  Scaled dot-product attention with a length mask, one query row at a time, over the extended reals.

  For a batch entry with `n` valid keys, a query row `q : Fin 64 → EReal`, keys `K` and values `V`
  (`Fin 2048 → Fin 64 → EReal`), the output at feature `d` is

      ∑ₖ softmaxₖ(sₖ) · V k d,     sₖ = (k < n ? (∑ⱼ q j · K k j) · (1/8) : −10⁶),

  where the softmax subtracts the row maximum (taken from −∞), exponentiates, and divides by the row's sum.
  Everything here is stated over plain `Fin`-indexed families, so that both programs can be read against it.
  The only law needed between the two programs is about the scale: dividing by √64 is multiplying by 1/8,
  on every extended real (no finiteness is used).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- The three float words the programs share: −∞ (the start of the row maximum), −10⁶ (the mask's fill) and
    1/8 (the kernel's scale). They are kept as words: both programs spell the same ones. -/
abbrev negInf : EReal := Ideal.ofBits .f32 0xFF800000#32
abbrev fill : EReal := Ideal.ofBits .f32 0xC9742400#32
abbrev eighth : EReal := Ideal.ofBits .f32 0x3E000000#32

/-- A row of scores with the keys at or beyond the valid length `n` (a signed 32-bit compare of the key's
    position against `n`) replaced by the fill. -/
def maskRow (n : BitVec 32) (s : Fin 2048 → EReal) (k : Fin 2048) : EReal :=
  Scalar.select (IntOp.cmpi .slt (BitVec.ofNat 32 k.val) n) (s k) fill

/-- The row maximum as both programs take it: a fold of `max` from −∞, then once more against −∞. -/
def rowMax (s : Fin 2048 → EReal) : EReal :=
  max negInf ((Finset.univ : Finset (Fin 2048)).fold max negInf s)

/-- The softmax weight of key `k` in a row of scores. -/
def softRow (s : Fin 2048 → EReal) (k : Fin 2048) : EReal :=
  Ideal.div (Ideal.exp (s k - rowMax s)) (∑ k' : Fin 2048, Ideal.exp (s k' - rowMax s))

/-- The scaled and masked scores of one query row against every key. -/
def scoreRow (n : BitVec 32) (q : Fin 64 → EReal) (K : Fin 2048 → Fin 64 → EReal) : Fin 2048 → EReal :=
  maskRow n fun k => (∑ j : Fin 64, q j * K k j) * eighth

/-- One output entry: the softmax-weighted sum of the values' feature `d`. -/
def attnRow (n : BitVec 32) (q : Fin 64 → EReal) (K V : Fin 2048 → Fin 64 → EReal) (d : Fin 64) : EReal :=
  ∑ k : Fin 2048, softRow (scoreRow n q K) k * V k d

/-- The three coordinates of an index of a `[16, 2048, 64]` array: batch entry, position, feature. -/
abbrev cb (i : (⟨3, ![16, 2048, 64]⟩ : Shape).Idx) : Fin 16 := ⟨(i 0).val, (i 0).isLt⟩
abbrev cq (i : (⟨3, ![16, 2048, 64]⟩ : Shape).Idx) : Fin 2048 := ⟨(i 1).val, (i 1).isLt⟩
abbrev cd (i : (⟨3, ![16, 2048, 64]⟩ : Shape).Idx) : Fin 64 := ⟨(i 2).val, (i 2).isLt⟩

theorem eq_coords (i : (⟨3, ![16, 2048, 64]⟩ : Shape).Idx) : i = ix3 (cb i) (cq i) (cd i) :=
  funext fun a => Fin.ext (match a with | ⟨0, _⟩ => rfl | ⟨1, _⟩ => rfl | ⟨2, _⟩ => rfl)

/-- The whole result array: entry `(b, q, d)` is the attention output of query `q` of batch entry `b` against that
    entry's keys and values, with that entry's valid length, at feature `d`. -/
def attn (Q K V : (⟨3, ![16, 2048, 64]⟩ : Shape).Idx → EReal) (L : (⟨1, ![16]⟩ : Shape).Idx → BitVec 32) :
    (⟨3, ![16, 2048, 64]⟩ : Shape).Idx → EReal :=
  fun i => attnRow (L (ix1 (cb i))) (fun j => Q (ix3 (cb i) (cq i) j)) (fun k j => K (ix3 (cb i) k j))
    (fun k j => V (ix3 (cb i) k j)) (cd i)

theorem attn_ix3 (Q K V : (⟨3, ![16, 2048, 64]⟩ : Shape).Idx → EReal) (L : (⟨1, ![16]⟩ : Shape).Idx → BitVec 32)
    (b : Fin 16) (q : Fin 2048) (d : Fin 64) :
    attn Q K V L (ix3 b q d)
      = attnRow (L (ix1 b)) (fun j => Q (ix3 b q j)) (fun k j => K (ix3 b k j)) (fun k j => V (ix3 b k j)) d := rfl

/-- The word `0x42800000` is 64. -/
theorem ofBits_64 : Ideal.ofBits .f32 0x42800000#32 = ((64 : ℝ) : EReal) := by
  simp [Ideal.ofBits, Ideal.ieee, -EReal.coe_mul]; norm_num

/-- The word `0x3E000000` is 1/8. -/
theorem ofBits_eighth : Ideal.ofBits .f32 0x3E000000#32 = ((1 / 8 : ℝ) : EReal) := by
  simp [Ideal.ofBits, Ideal.ieee, -EReal.coe_mul]; norm_num

/-- √64 = 8 over the reals. -/
theorem sqrt_64 : Real.sqrt 64 = 8 := by
  rw [show (64 : ℝ) = 8 ^ 2 by norm_num]
  exact Real.sqrt_sq (by norm_num)

/-- Dividing by √64 is multiplying by the word 1/8, on every extended real: the quotient by the nonzero real 8
    is the product with its reciprocal, infinities included. -/
theorem div_sqrt_64 (x : EReal) :
    Ideal.div x (Ideal.sqrt (Ideal.ofBits .f32 0x42800000#32)) = x * eighth := by
  rw [ofBits_64, Ideal.sqrt_coe, if_neg (by norm_num), sqrt_64, Ideal.div_coe (by norm_num : (8 : ℝ) ≠ 0)]
  show _ = x * Ideal.ofBits .f32 0x3E000000#32
  rw [ofBits_eighth]

end Cert.Attn

end
-- ==== Proof.RowOps.lean ====
/-
  Row-wise operations on a matrix of extended reals, read at an index.

  A row maximum and a row sum of an `[R, N]` matrix (a reduction over the second axis) at row `r` are the fold of
  `max` and the sum over the `N` entries of that row; a column `[R]` viewed as `[R, 1]` and spread over `[R, N]`
  reads its row's entry; a product of an `[R, K]` by a `[K, N]` matrix at `(r, n)` is the sum over `k` of the products
  of the row's and the column's entries; a transpose swaps the coordinates; adding or dropping a leading unit
  axis keeps the remaining coordinates.
-/
import Idealize.ShloMosaic.PureOps.Ideal.Laws
import Idealize.ShloMosaic.Lib.ValueIdx
import Idealize.ShloMosaic.Lib.Pipeline.Value

noncomputable section

namespace Cert.Attn.Rows

open Idealize.ShloMosaic Idealize.ShloMosaic.ValueIdx

variable {R N K : Nat}

/-- Row `r` of the matrix with the reduced coordinate `k` put back is the entry `(r, k)`. -/
theorem lift_row (h : (⟨2, ![R, N]⟩ : Shape).Reduces [1] ⟨1, ![R]⟩) (r : Fin R) (k : Fin N) :
    h.lift (ix1 r) k = ix2 r k := by
  funext c
  apply Fin.ext
  match c with
  | ⟨0, _⟩ => rfl
  | ⟨1, _⟩ => rfl

/-- The maximum over a row, from the accumulator's word. -/
theorem rowMax_apply (x : FVec Ideal ⟨2, ![R, N]⟩ .f32) (acc : BitVec 32)
    (h : (⟨2, ![R, N]⟩ : Shape).Reduces [1] ⟨1, ![R]⟩) (hφ : FKind.Formats .f32)
    (hacc : acc = FKind.maximumf.neutral .f32 hφ) (r : Fin R) :
    multiReduction .maximumf [1] ⟨1, ![R]⟩ x acc h hφ hacc (ix1 r)
      = (Finset.univ : Finset (Fin N)).fold max (Ideal.ofBits .f32 acc) (fun k => x (ix2 r k)) := by
  refine (Ideal.multiReduction_maximumf_single x acc h hφ hacc (ix1 r)).trans ?_
  exact congrArg (fun f : Fin N → EReal => (Finset.univ : Finset (Fin N)).fold max (Ideal.ofBits .f32 acc) f)
    (funext fun k => congrArg x (lift_row h r k))

/-- The sum over a row. -/
theorem rowSum_apply (x : FVec Ideal ⟨2, ![R, N]⟩ .f32) (acc : BitVec 32)
    (h : (⟨2, ![R, N]⟩ : Shape).Reduces [1] ⟨1, ![R]⟩) (hφ : FKind.Formats .f32)
    (hacc : acc = FKind.add.neutral .f32 hφ) (r : Fin R) :
    multiReduction .add [1] ⟨1, ![R]⟩ x acc h hφ hacc (ix1 r) = ∑ k : Fin N, x (ix2 r k) := by
  refine (Ideal.multiReduction_add_single x acc h hφ hacc (ix1 r)).trans ?_
  exact Finset.sum_congr rfl fun k _ => congrArg x (lift_row h r k)

/-- A column spread over the rows' entries: `[R] → [R, 1] → [R, N]` reads the row's entry. -/
theorem spread_apply {α : Type} (y : (⟨1, ![R]⟩ : Shape).Idx → α)
    (h1 : (⟨1, ![R]⟩ : Shape).ShapeCasts ⟨2, ![R, 1]⟩) (h2 : (⟨2, ![R, 1]⟩ : Shape).Broadcasts ⟨2, ![R, N]⟩)
    (r : Fin R) (k : Fin N) :
    broadcastTo ⟨2, ![R, N]⟩ (shapeCast ⟨2, ![R, 1]⟩ y h1) h2 (ix2 r k) = y (ix1 r) := by
  refine (broadcastTo_apply _ h2 (ix2 r k) (ix2 r ⟨0, Nat.one_pos⟩) fun a => ?_).trans ?_
  · match a with
    | ⟨0, _⟩ =>
      show r.val = if R = 1 then 0 else r.val
      split
      · have := r.isLt; omega
      · rfl
    | ⟨1, _⟩ => show 0 = if (1 : Nat) = 1 then 0 else k.val; rw [if_pos rfl]
  · refine shapeCast_apply y h1 (ix2 r ⟨0, Nat.one_pos⟩) (ix1 r) ?_
    rw [Shape.rowMajor_val_one, Shape.rowMajor_val_two]
    show r.val = r.val * 1 + 0
    omega

/-- Dropping the leading unit axis of a `[1, A, B]` block: entry `(r, j)` is the block's `(0, r, j)`. -/
theorem dropUnit_apply {α : Type} {A B : Nat} (v : (⟨3, ![1, A, B]⟩ : Shape).Idx → α)
    (h : (⟨3, ![1, A, B]⟩ : Shape).ShapeCasts ⟨2, ![A, B]⟩) (r : Fin A) (j : Fin B) :
    shapeCast ⟨2, ![A, B]⟩ v h (ix2 r j) = v (ix3 ⟨0, Nat.one_pos⟩ r j) :=
  (shapeCast_dropUnit_apply ![A, B] v h (ix2 r j)).trans
    (congrArg v (funext fun a => match a with | ⟨0, _⟩ => rfl | ⟨1, _⟩ => rfl | ⟨2, _⟩ => rfl))

/-- Adding a leading unit axis to an `[A, B]` matrix: the block's `(0, r, j)` is entry `(r, j)`. -/
theorem addUnit_apply {α : Type} {A B : Nat} (v : (⟨2, ![A, B]⟩ : Shape).Idx → α)
    (h : (⟨2, ![A, B]⟩ : Shape).ShapeCasts ⟨3, ![1, A, B]⟩) (z : Fin 1) (r : Fin A) (j : Fin B) :
    shapeCast ⟨3, ![1, A, B]⟩ v h (ix3 z r j) = v (ix2 r j) :=
  (shapeCast_addUnit_apply ![A, B] v h (ix3 z r j)).trans
    (congrArg v (funext fun a => match a with | ⟨0, _⟩ => rfl | ⟨1, _⟩ => rfl))

/-- A transposed matrix at `(j, k)` is the matrix at `(k, j)`. -/
theorem transpose2_apply {α : Type} {A B : Nat} (x : (⟨2, ![A, B]⟩ : Shape).Idx → α)
    (h : (⟨2, ![A, B]⟩ : Shape).Transposes [1, 0] ⟨2, ![B, A]⟩) (j : Fin B) (k : Fin A) :
    transpose ⟨2, ![B, A]⟩ [1, 0] x h (ix2 j k) = x (ix2 k j) :=
  transpose_apply [1, 0] x h (ix2 j k) (ix2 k j) (fun b => match b with | ⟨0, _⟩ => rfl | ⟨1, _⟩ => rfl)

end Cert.Attn.Rows

end
-- ==== Proof.KernelDots.lean ====
/-
  The kernel's two matrix products read at an entry, over the extended reals.

  Scores: a `[512, 64]` tile of queries times the `[64, 2048]` transposed keys, into a zero accumulator, at
  `(r, n)` is `∑ₖ a(r, k) · b(k, n)` over the 64 features. Output: the `[512, 2048]` weights times the `[2048, 64]`
  values at `(r, d)` is `∑ₖ p(r, k) · v(k, d)` over the 2048 keys. In both the contraction index is the left
  operand's second and the right operand's first coordinate.
-/
import proofs.«423094_j58686433132651_1_alg».proof.Proof.Gen.KernelIdeal
import Idealize.ShloMosaic.PureOps.Ideal.Laws
import Idealize.ShloMosaic.Lib.ValueIdx

noncomputable section

namespace Cert.KernelIdeal.Dots

open Cert.KernelIdeal Cert.KernelIdeal.Gen Idealize.ShloMosaic Idealize.ShloMosaic.ValueIdx

theorem qk_lhs_0 (i : S512x2048.Idx) (q : dot_S512x64_S64x2048_S512x2048_1_0_0_1_n_n.contr.Idx) :
    (dot_S512x64_S64x2048_S512x2048_1_0_0_1_n_n.lhsIdx i q 0).val = (i 0).val := by
  unfold DotDims.lhsIdx
  rw [dif_neg (show ¬(0 : Fin S512x64.rank) ∈ dot_S512x64_S64x2048_S512x2048_1_0_0_1_n_n.lhsBatch by decide), dif_pos (show (0 : Fin S512x64.rank) ∈ dot_S512x64_S64x2048_S512x2048_1_0_0_1_n_n.lhsNonContracting by decide)]
  rfl
theorem qk_lhs_1 (i : S512x2048.Idx) (q : dot_S512x64_S64x2048_S512x2048_1_0_0_1_n_n.contr.Idx) :
    (dot_S512x64_S64x2048_S512x2048_1_0_0_1_n_n.lhsIdx i q 1).val = (q ⟨0, by decide⟩).val :=
  dot_S512x64_S64x2048_S512x2048_1_0_0_1_n_n.lhsIdx_val_of_single rfl i q
theorem qk_rhs_0 (i : S512x2048.Idx) (q : dot_S512x64_S64x2048_S512x2048_1_0_0_1_n_n.contr.Idx) :
    (dot_S512x64_S64x2048_S512x2048_1_0_0_1_n_n.rhsIdx i q 0).val = (q ⟨0, by decide⟩).val :=
  dot_S512x64_S64x2048_S512x2048_1_0_0_1_n_n.rhsIdx_val_of_single rfl i q
theorem qk_rhs_1 (i : S512x2048.Idx) (q : dot_S512x64_S64x2048_S512x2048_1_0_0_1_n_n.contr.Idx) :
    (dot_S512x64_S64x2048_S512x2048_1_0_0_1_n_n.rhsIdx i q 1).val = (i 1).val := by
  unfold DotDims.rhsIdx
  rw [dif_neg (show ¬(1 : Fin S64x2048.rank) ∈ dot_S512x64_S64x2048_S512x2048_1_0_0_1_n_n.rhsBatch by decide), dif_pos (show (1 : Fin S64x2048.rank) ∈ dot_S512x64_S64x2048_S512x2048_1_0_0_1_n_n.rhsNonContracting by decide)]
  rfl

/-- The scores' product at `(r, n)`: the sum over the 64 features. -/
theorem qk_apply (a : FVec Ideal S512x64 .bf16) (b : FVec Ideal S64x2048 .bf16) (r : Fin 512) (n : Fin 2048) :
    matmul dot_S512x64_S64x2048_S512x2048_1_0_0_1_n_n none a b (constant (F := Ideal) S512x2048 .f32 0x00000000#32) (ix2 r n)
      = ∑ k : Fin 64, a (ix2 r k) * b (ix2 k n) := by
  simp only [matmul]
  rw [Ideal.matmul_constant_zero_apply, ← Equiv.sum_comp (contrEquiv1 dot_S512x64_S64x2048_S512x2048_1_0_0_1_n_n 64 rfl rfl).symm]
  refine Finset.sum_congr rfl fun k _ => ?_
  have hk := contrEquiv1_symm_val dot_S512x64_S64x2048_S512x2048_1_0_0_1_n_n 64 rfl rfl k
  have el : dot_S512x64_S64x2048_S512x2048_1_0_0_1_n_n.lhsIdx (ix2 r n) ((contrEquiv1 dot_S512x64_S64x2048_S512x2048_1_0_0_1_n_n 64 rfl rfl).symm k) = ix2 r k := funext fun c => Fin.ext (by
    match c with
    | ⟨0, _⟩ => exact qk_lhs_0 _ _
    | ⟨1, _⟩ => exact (qk_lhs_1 _ _).trans hk)
  have er : dot_S512x64_S64x2048_S512x2048_1_0_0_1_n_n.rhsIdx (ix2 r n) ((contrEquiv1 dot_S512x64_S64x2048_S512x2048_1_0_0_1_n_n 64 rfl rfl).symm k) = ix2 k n := funext fun c => Fin.ext (by
    match c with
    | ⟨0, _⟩ => exact (qk_rhs_0 _ _).trans hk
    | ⟨1, _⟩ => exact qk_rhs_1 _ _)
  rw [el, er]

theorem pv_lhs_0 (i : S512x64.Idx) (q : dot_S512x2048_S2048x64_S512x64_1_0_0_1_n_n.contr.Idx) :
    (dot_S512x2048_S2048x64_S512x64_1_0_0_1_n_n.lhsIdx i q 0).val = (i 0).val := by
  unfold DotDims.lhsIdx
  rw [dif_neg (show ¬(0 : Fin S512x2048.rank) ∈ dot_S512x2048_S2048x64_S512x64_1_0_0_1_n_n.lhsBatch by decide), dif_pos (show (0 : Fin S512x2048.rank) ∈ dot_S512x2048_S2048x64_S512x64_1_0_0_1_n_n.lhsNonContracting by decide)]
  rfl
theorem pv_lhs_1 (i : S512x64.Idx) (q : dot_S512x2048_S2048x64_S512x64_1_0_0_1_n_n.contr.Idx) :
    (dot_S512x2048_S2048x64_S512x64_1_0_0_1_n_n.lhsIdx i q 1).val = (q ⟨0, by decide⟩).val :=
  dot_S512x2048_S2048x64_S512x64_1_0_0_1_n_n.lhsIdx_val_of_single rfl i q
theorem pv_rhs_0 (i : S512x64.Idx) (q : dot_S512x2048_S2048x64_S512x64_1_0_0_1_n_n.contr.Idx) :
    (dot_S512x2048_S2048x64_S512x64_1_0_0_1_n_n.rhsIdx i q 0).val = (q ⟨0, by decide⟩).val :=
  dot_S512x2048_S2048x64_S512x64_1_0_0_1_n_n.rhsIdx_val_of_single rfl i q
theorem pv_rhs_1 (i : S512x64.Idx) (q : dot_S512x2048_S2048x64_S512x64_1_0_0_1_n_n.contr.Idx) :
    (dot_S512x2048_S2048x64_S512x64_1_0_0_1_n_n.rhsIdx i q 1).val = (i 1).val := by
  unfold DotDims.rhsIdx
  rw [dif_neg (show ¬(1 : Fin S2048x64.rank) ∈ dot_S512x2048_S2048x64_S512x64_1_0_0_1_n_n.rhsBatch by decide), dif_pos (show (1 : Fin S2048x64.rank) ∈ dot_S512x2048_S2048x64_S512x64_1_0_0_1_n_n.rhsNonContracting by decide)]
  rfl

/-- The output's product at `(r, d)`: the sum over the 2048 keys. -/
theorem pv_apply (a : FVec Ideal S512x2048 .bf16) (b : FVec Ideal S2048x64 .bf16) (r : Fin 512) (n : Fin 64) :
    matmul dot_S512x2048_S2048x64_S512x64_1_0_0_1_n_n none a b (constant (F := Ideal) S512x64 .f32 0x00000000#32) (ix2 r n)
      = ∑ k : Fin 2048, a (ix2 r k) * b (ix2 k n) := by
  simp only [matmul]
  rw [Ideal.matmul_constant_zero_apply, ← Equiv.sum_comp (contrEquiv1 dot_S512x2048_S2048x64_S512x64_1_0_0_1_n_n 2048 rfl rfl).symm]
  refine Finset.sum_congr rfl fun k _ => ?_
  have hk := contrEquiv1_symm_val dot_S512x2048_S2048x64_S512x64_1_0_0_1_n_n 2048 rfl rfl k
  have el : dot_S512x2048_S2048x64_S512x64_1_0_0_1_n_n.lhsIdx (ix2 r n) ((contrEquiv1 dot_S512x2048_S2048x64_S512x64_1_0_0_1_n_n 2048 rfl rfl).symm k) = ix2 r k := funext fun c => Fin.ext (by
    match c with
    | ⟨0, _⟩ => exact pv_lhs_0 _ _
    | ⟨1, _⟩ => exact (pv_lhs_1 _ _).trans hk)
  have er : dot_S512x2048_S2048x64_S512x64_1_0_0_1_n_n.rhsIdx (ix2 r n) ((contrEquiv1 dot_S512x2048_S2048x64_S512x64_1_0_0_1_n_n 2048 rfl rfl).symm k) = ix2 k n := funext fun c => Fin.ext (by
    match c with
    | ⟨0, _⟩ => exact (pv_rhs_0 _ _).trans hk
    | ⟨1, _⟩ => exact pv_rhs_1 _ _)
  rw [el, er]

end Cert.KernelIdeal.Dots

end
-- ==== Proof.PayValue.lean ====
/-
  The kernel body's stored value, read at an entry.

  On a tile of 512 query rows `x` (a `[1, 512, 64]` block), with the batch entry's keys `y` and values `z`
  (`[1, 2048, 64]` blocks) and its valid length `n`, the body stores, at `(0, r, d)`, the attention output of query
  row `r` at feature `d`: the scores `x(r,·) · y(k,·)` scaled by 1/8 and masked beyond `n`, their softmax over the
  2048 keys, and the weighted sum of `z(k, d)`. The value is cut into three stages — the masked scores, the
  exponentials shifted by the row maximum, the weights — each read at an entry, and the final product.
-/
import proofs.«423094_j58686433132651_1_alg».proof.Proof.Gen.KernelIdeal.Skeleton
import proofs.«423094_j58686433132651_1_alg».proof.Proof.Spec
import proofs.«423094_j58686433132651_1_alg».proof.Proof.RowOps
import proofs.«423094_j58686433132651_1_alg».proof.Proof.KernelDots

noncomputable section

namespace Cert.KernelIdeal.PayValue

open Cert.KernelIdeal Cert.KernelIdeal.Gen Idealize.ShloMosaic Idealize.ShloMosaic.ValueIdx Cert.Attn

/-- The masked, scaled scores of the tile: row `r`, key `k`. -/
def scores (x : Vec Ideal S1x512x64 .f32) (y : Vec Ideal S1x2048x64 .f32) (n : Elt Ideal .i32) : FVec Ideal S512x2048 .f32 :=
  select (cmpi .slt (iota .tc S512x2048 32 [1] iota_S512x2048_d1_w32) (broadcast S512x2048 n))
    (mulf (matmul dot_S512x64_S64x2048_S512x2048_1_0_0_1_n_n none
        (truncf .bf16 (shapeCast S512x64 x shapeCasts_S1x512x64_S512x64) bitsLt_bf16_f32)
        (transpose S64x2048 [1, 0] (truncf .bf16 (shapeCast S2048x64 y shapeCasts_S1x2048x64_S2048x64) bitsLt_bf16_f32) transposes_S2048x64_p1_0_S64x2048)
        (constant (F := Ideal) S512x2048 .f32 0x00000000#32))
      (broadcast S512x2048 (Scalar.ofBits (F := Ideal) .f32 0x3E000000#32)))
    (broadcast S512x2048 (Scalar.ofBits (F := Ideal) .f32 0xC9742400#32))

/-- The exponentials of a tile of scores shifted by each row's maximum. -/
def expRows (s : FVec Ideal S512x2048 .f32) : FVec Ideal S512x2048 .f32 :=
  exp (subf s (broadcastTo S512x2048 (shapeCast S512x1
    (maximumf (broadcast S512 (Scalar.ofBits (F := Ideal) .f32 0xFF800000#32))
      (multiReduction .maximumf [1] S512 s 0xFF800000#32 reduces_S512x2048_S512 (.inl rfl) rfl))
    shapeCasts_S512_S512x1) broadcasts_S512x1_S512x2048))

/-- The softmax weights of a tile of scores. -/
def weights (s : FVec Ideal S512x2048 .f32) : FVec Ideal S512x2048 .f32 :=
  divf (expRows s) (broadcastTo S512x2048 (shapeCast S512x1
    (multiReduction .add [1] S512 (expRows s) 0x00000000#32 reduces_S512x2048_S512 (.inl rfl) rfl)
    shapeCasts_S512_S512x1) broadcasts_S512x1_S512x2048)

/-- The stored value is the weights' product with the values, with a leading unit axis. -/
theorem pay_eq (x : Vec Ideal S1x512x64 .f32) (y z : Vec Ideal S1x2048x64 .f32) (n : Elt Ideal .i32) :
    k0_pay1 (F := Ideal) x y z n
      = shapeCast S1x512x64 (matmul dot_S512x2048_S2048x64_S512x64_1_0_0_1_n_n none
          (truncf .bf16 (weights (scores x y n)) bitsLt_bf16_f32)
          (truncf .bf16 (shapeCast S2048x64 z shapeCasts_S1x2048x64_S2048x64) bitsLt_bf16_f32)
          (constant (F := Ideal) S512x64 .f32 0x00000000#32)) shapeCasts_S512x64_S1x512x64 := rfl

/-- The scores at `(r, k)` are the specification's masked row of query row `r`. -/
theorem scores_apply (x : Vec Ideal S1x512x64 .f32) (y : Vec Ideal S1x2048x64 .f32) (n : Elt Ideal .i32) (r : Fin 512) (k : Fin 2048) :
    scores x y n (ix2 r k) = scoreRow n (fun j => x (ix3 0 r j)) (fun k' j => y (ix3 0 k' j)) k := by
  have hi : iota .tc S512x2048 32 [1] iota_S512x2048_d1_w32 (ix2 r k) = BitVec.ofNat 32 k.val :=
    iota_single_apply _ _ _ _ _ _
  have hm : matmul dot_S512x64_S64x2048_S512x2048_1_0_0_1_n_n none
        (truncf .bf16 (shapeCast S512x64 x shapeCasts_S1x512x64_S512x64) bitsLt_bf16_f32)
        (transpose S64x2048 [1, 0] (truncf .bf16 (shapeCast S2048x64 y shapeCasts_S1x2048x64_S2048x64) bitsLt_bf16_f32) transposes_S2048x64_p1_0_S64x2048)
        (constant (F := Ideal) S512x2048 .f32 0x00000000#32) (ix2 r k)
      = ∑ j : Fin 64, x (ix3 0 r j) * y (ix3 0 k j) :=
    (Dots.qk_apply _ _ r k).trans (Finset.sum_congr rfl fun j _ =>
      congrArg₂ (· * ·) (Rows.dropUnit_apply x shapeCasts_S1x512x64_S512x64 r j)
        ((Rows.transpose2_apply _ transposes_S2048x64_p1_0_S64x2048 j k).trans (Rows.dropUnit_apply y shapeCasts_S1x2048x64_S2048x64 k j)))
  unfold scores
  rw [select_apply, mulf_apply, broadcast_apply, broadcast_apply, hm]
  rw [show cmpi .slt (iota .tc S512x2048 32 [1] iota_S512x2048_d1_w32) (broadcast S512x2048 n) (ix2 r k)
      = IntOp.cmpi .slt (iota .tc S512x2048 32 [1] iota_S512x2048_d1_w32 (ix2 r k)) n from rfl, hi]
  unfold scoreRow maskRow
  rfl

/-- The exponential of a vector, entry by entry. -/
theorem exp_apply {s : Shape} {φ : FTy} (a : FVec Ideal s φ) (i : s.Idx) : exp a i = Ideal.exp (a i) := rfl

/-- A row's maximum as the body takes it. -/
theorem rmax_apply (s : FVec Ideal S512x2048 .f32) (r : Fin 512) :
    maximumf (broadcast S512 (Scalar.ofBits (F := Ideal) .f32 0xFF800000#32))
      (multiReduction .maximumf [1] S512 s 0xFF800000#32 reduces_S512x2048_S512 (.inl rfl) rfl) (ix1 r)
      = rowMax (fun k => s (ix2 r k)) := by
  rw [maximumf_apply, broadcast_apply, Rows.rowMax_apply s 0xFF800000#32 reduces_S512x2048_S512 (.inl rfl) rfl r]
  rfl

/-- The shifted exponentials at `(r, k)`. -/
theorem expRows_apply (s : FVec Ideal S512x2048 .f32) (r : Fin 512) (k : Fin 2048) :
    expRows s (ix2 r k) = Ideal.exp (s (ix2 r k) - rowMax (fun k' => s (ix2 r k'))) := by
  unfold expRows
  rw [exp_apply, subf_apply, Rows.spread_apply _ shapeCasts_S512_S512x1 broadcasts_S512x1_S512x2048 r k, rmax_apply]

/-- The weights at `(r, k)` are the specification's softmax of row `r`. -/
theorem weights_apply (s : FVec Ideal S512x2048 .f32) (r : Fin 512) (k : Fin 2048) :
    weights s (ix2 r k) = softRow (fun k' => s (ix2 r k')) k := by
  unfold weights
  rw [divf_apply, Rows.spread_apply _ shapeCasts_S512_S512x1 broadcasts_S512x1_S512x2048 r k,
    Rows.rowSum_apply (expRows s) 0x00000000#32 reduces_S512x2048_S512 (.inl rfl) rfl r]
  simp only [expRows_apply]
  rfl

/-- The stored value at `(0, r, d)` is the attention output of query row `r` at feature `d`. -/
theorem pay_apply (x : Vec Ideal S1x512x64 .f32) (y z : Vec Ideal S1x2048x64 .f32) (n : Elt Ideal .i32) (r : Fin 512) (d : Fin 64) :
    k0_pay1 (F := Ideal) x y z n (ix3 0 r d)
      = attnRow n (fun j => x (ix3 0 r j)) (fun k j => y (ix3 0 k j)) (fun k j => z (ix3 0 k j)) d := by
  rw [pay_eq]
  refine (Rows.addUnit_apply _ shapeCasts_S512x64_S1x512x64 0 r d).trans ?_
  refine (Dots.pv_apply _ _ r d).trans ?_
  unfold attnRow
  refine Finset.sum_congr rfl fun k _ => ?_
  rw [truncf_apply, truncf_apply, weights_apply, Rows.dropUnit_apply z shapeCasts_S1x2048x64_S2048x64 k d]
  simp only [scores_apply]
  rfl

end Cert.KernelIdeal.PayValue

end
-- ==== Proof.RunValue.lean ====
/-
  The kernel's run, read: its result array is the attention specification of its argument arrays.

  At grid point `t = 4·b + qi` the body is handed query rows `512·qi … 512·qi + 511` of batch entry `b`, all of that
  entry's keys and values, and reads the entry's valid length from the table; what it leaves in the output's
  staging buffer is the attention output of those rows, which the pipeline writes back to rows
  `512·qi … 512·qi + 511` of entry `b` of the result. The 64 points' blocks tile the result array.
-/
import proofs.«423094_j58686433132651_1_alg».proof.Proof.Gen.KernelIdeal.Frame
import proofs.«423094_j58686433132651_1_alg».proof.Proof.PayValue
import Idealize.ShloMosaic.Lib.Pipeline.Value
import Idealize.ShloMosaic.Lib.Tactic

set_option maxRecDepth 16384

noncomputable section

namespace Cert.KernelIdeal.RunValue

open Cert.KernelIdeal Cert.KernelIdeal.Gen Idealize.ShloMosaic Idealize.ShloMosaic.TcCoe Idealize.ShloMosaic.Tactic Idealize.SL.Sem
open Idealize.ShloMosaic.ValueIdx Cert.Attn
open Idealize.ShloMosaic.Pipeline (Dat)

section AnyValues
variable {F : FTy → Type} [FloatOps F]

theorem hz : (![0, 0, 0] : Fin 3 → Nat) = fun _ => 0 := funext fun a => by fin_cases a <;> rfl

/-- The batch coordinate of a grid point, as an index of the valid-length table. -/
abbrev bIdx (i : grid0.Coords) : S16.Idx := ix1 (⟨(i 0).val, (i 0).isLt⟩ : Fin 16)

/-- The one word the body reads from the table at grid point `i` is the table's entry at the point's batch coordinate. -/
theorem word_eq (c : Dev nD) (i : grid0.Coords) (xt0 : TbBuf0 (F := F) c tbM0_0)
    (h : 0 < (Rect.unit (s := S16) (k0_off1 i) S1.size (k0_off1_inb i)).toLoadRect.shape.numel) :
    View.readAt (Elt F) tbM0_0.view (Rect.unit (s := S16) (k0_off1 i) S1.size (k0_off1_inb i)).toLoadRect xt0 (Shape.Idx.first h)
      = (xt0 : S16.Idx → Elt F .i32) (bIdx i) := by
  rw [View.readAt_apply, View.read_apply]
  refine (cast_eq _ _).trans ?_
  refine congrArg xt0 (funext fun a => Fin.ext ?_)
  match a with
  | ⟨0, _⟩ =>
    have e : k0_off1 i 0 = (i 0).val := congrFun (k0_off1_eq i) 0
    show k0_off1 i 0 + 1 * 0 = (i 0).val
    omega

/-- What the body leaves in the output's staging buffer: its one covering store's value, of the three blocks it
    was handed and the table's entry at the point's batch coordinate. -/
theorem out_A (c : Dev nD) (i : grid0.Coords) (arg3 : Memref sig .tc .vmem S1x512x64 .f32) (harg3 : arg3.IsWhole) (arg4 : Memref sig .tc .vmem S1x2048x64 .f32) (harg4 : arg4.IsWhole) (arg5 : Memref sig .tc .vmem S1x2048x64 .f32) (harg5 : arg5.IsWhole) (arg6 : Memref sig .tc .vmem S1x512x64 .f32) (harg6 : arg6.IsWhole)
    (x0 : Vec F S1x512x64 .f32) (x1 : Vec F S1x2048x64 .f32) (x2 : Vec F S1x2048x64 .f32) (xt0 : TbBuf0 (F := F) c tbM0_0) :
    out0_A_3 c i arg3 harg3 arg4 harg4 arg5 harg5 arg6 harg6 x0 x1 x2 xt0
      = k0_pay1 x0 x1 x2 ((xt0 : S16.Idx → Elt F .i32) (bIdx i)) := by
  unfold out0_A_3
  rw [View.read_writes_eq_canon _ _ _ (cover0_A_3 c i arg3 harg3 arg4 harg4 arg5 harg5 arg6 harg6 x0 x1 x2 xt0)]
  unfold kernelRun0_A
  dsimp only
  sl_unfold_words
  rw [View.canon_unit_zero hz]
  refine (congrArg (k0_pay1 _ _ _) (word_eq c i xt0 _)).trans ?_
  simp only [View.readAt_eq_ld, harg3.read_unread, harg4.read_unread, harg5.read_unread,
    View.ld_unit_zero (S := S1x512x64) hz, View.ld_unit_zero (S := S1x2048x64) hz]

end AnyValues

/-- The index maps over the grid: point `t` is batch entry `t / 4`, query tile `t % 4`. -/
theorem tr_facts : ∀ t : Fin grid0.N,
    cc0_transform_0 (grid0.coords t) 0 = t.val / 4 ∧ cc0_transform_0 (grid0.coords t) 1 = t.val % 4 ∧ cc0_transform_0 (grid0.coords t) 2 = 0
    ∧ cc0_transform_1 (grid0.coords t) 0 = t.val / 4 ∧ cc0_transform_1 (grid0.coords t) 1 = 0 ∧ cc0_transform_1 (grid0.coords t) 2 = 0
    ∧ cc0_transform_2 (grid0.coords t) 0 = t.val / 4 ∧ cc0_transform_2 (grid0.coords t) 1 = 0 ∧ cc0_transform_2 (grid0.coords t) 2 = 0
    ∧ cc0_transform_3 (grid0.coords t) 0 = t.val / 4 ∧ cc0_transform_3 (grid0.coords t) 1 = t.val % 4 ∧ cc0_transform_3 (grid0.coords t) 2 = 0
    ∧ ((grid0.coords t) 0).val = t.val / 4 := by
  decide +kernel

/-- On blocks that read the argument arrays where the point's windows lie, the stored value is the specification
    at the block's place in the result. -/
theorem block_value (Q K V : S16x2048x64.Idx → EReal) (L : S16.Idx → BitVec 32)
    (x : Vec Ideal S1x512x64 .f32) (yk yv : Vec Ideal S1x2048x64 .f32) (n : BitVec 32) (b : Fin 16) (qi : Fin 4)
    (row : Fin 512 → Fin 2048) (hrow : ∀ r, (row r).val = qi.val * 512 + r.val)
    (hx : ∀ (r : Fin 512) (j : Fin 64), x (ix3 0 r j) = Q (ix3 b (row r) j))
    (hk : ∀ (k : Fin 2048) (j : Fin 64), yk (ix3 0 k j) = K (ix3 b k j))
    (hv : ∀ (k : Fin 2048) (j : Fin 64), yv (ix3 0 k j) = V (ix3 b k j))
    (hn : n = L (ix1 b)) (r : Fin 512) (d : Fin 64) :
    k0_pay1 (F := Ideal) x yk yv n (ix3 0 r d) = attn Q K V L (ix3 b (row r) d) := by
  rw [PayValue.pay_apply, attn_ix3]
  simp only [hx, hk, hv, hn]

variable (m : (ℓ : Loc nD τ sig) → Buf (Elt Ideal) ℓ) (ρ : Dev nD → PrngReg)

/-- The three input blocks at a point, at their literal types: a tile of 512 query rows, and the batch entry's
    keys and values. -/
abbrev qblk (hO : Ok m) (c : Dev nD) (t : Fin (cfgM m hO).N) : Vec Ideal S1x512x64 .f32 := iblk m hO c 0 t
abbrev kblk (hO : Ok m) (c : Dev nD) (t : Fin (cfgM m hO).N) : Vec Ideal S1x2048x64 .f32 := iblk m hO c 1 t
abbrev vblk (hO : Ok m) (c : Dev nD) (t : Fin (cfgM m hO).N) : Vec Ideal S1x2048x64 .f32 := iblk m hO c 2 t

/-- The argument arrays as the region finds them, at their literal types. -/
abbrev qarr (c : Dev nD) : S16x2048x64.Idx → EReal := V m c main_arg0
abbrev karr (c : Dev nD) : S16x2048x64.Idx → EReal := V m c main_arg1
abbrev varr (c : Dev nD) : S16x2048x64.Idx → EReal := V m c main_arg2
abbrev larr (c : Dev nD) : S16.Idx → BitVec 32 := V m c main_arg3

/-- Entry `y` of what the body leaves at point `t` is the specification at `y`'s place in the result. -/
theorem flushed_at (hO : Ok m) (c : Dev nD) (t : Fin (cfgM m hO).N) (y : S1x512x64.Idx) :
    outsAt0 m hO c t y
      = attn (qarr m c) (karr m c) (varr m c) (larr m c) ((((cfgM m hO).win 3).blk t).view.emb y) := by
  have h0 : (y 0).val < 1 := (y 0).isLt
  have h1 : (y 1).val < 512 := (y 1).isLt
  have h2 : (y 2).val < 64 := (y 2).isLt
  have ht : t.val < grid0.N := t.isLt
  rw [N_0] at ht
  obtain ⟨a0, a1, a2, b0, b1, b2, c0, c1, c2, d0, d1, d2, e0⟩ := tr_facts t
  have hy : y = (ix3 (0 : Fin 1) ⟨(y 1).val, h1⟩ ⟨(y 2).val, h2⟩ : S1x512x64.Idx) :=
    funext fun a => Fin.ext (by
      match a with
      | ⟨0, _⟩ => show (y 0).val = 0; omega
      | ⟨1, _⟩ => rfl
      | ⟨2, _⟩ => rfl)
  refine (congrArg (outsAt0 m hO c t) hy).trans ?_
  refine (congrFun (out_A (F := Ideal) c (grid0.coords t) (ms0_0 m hO t) (hs0_0 m hO t) (ms0_1 m hO t) (hs0_1 m hO t) (ms0_2 m hO t) (hs0_2 m hO t) (ms0_3 m hO t) (hs0_3 m hO t) (qblk m hO c t) (kblk m hO c t) (vblk m hO c t) (tbl m 0)) _).trans ?_
  refine (block_value (qarr m c) (karr m c) (varr m c) (larr m c) (qblk m hO c t) (kblk m hO c t) (vblk m hO c t) _
    ⟨t.val / 4, by omega⟩ ⟨t.val % 4, by omega⟩ (fun r => ⟨t.val % 4 * 512 + r.val, by have := r.isLt; omega⟩) (fun r => rfl)
    ?_ ?_ ?_ ?_ ⟨(y 1).val, h1⟩ ⟨(y 2).val, h2⟩).trans ?_
  · intro r j
    show V m c main_arg0 ((((cfgM m hO).win 0).blk t).view.emb (ix3 (0 : Fin 1) r j)) = _
    refine congrArg (V m c main_arg0) (funext fun a => Fin.ext ?_)
    match a with
    | ⟨0, _⟩ => show cc0_transform_0 (grid0.coords t) 0 * 1 + 1 * 0 = t.val / 4; omega
    | ⟨1, _⟩ => show cc0_transform_0 (grid0.coords t) 1 * 512 + 1 * r.val = t.val % 4 * 512 + r.val; omega
    | ⟨2, _⟩ => show cc0_transform_0 (grid0.coords t) 2 * 64 + 1 * j.val = j.val; omega
  · intro k j
    show V m c main_arg1 ((((cfgM m hO).win 1).blk t).view.emb (ix3 (0 : Fin 1) k j)) = _
    refine congrArg (V m c main_arg1) (funext fun a => Fin.ext ?_)
    match a with
    | ⟨0, _⟩ => show cc0_transform_1 (grid0.coords t) 0 * 1 + 1 * 0 = t.val / 4; omega
    | ⟨1, _⟩ => show cc0_transform_1 (grid0.coords t) 1 * 2048 + 1 * k.val = k.val; omega
    | ⟨2, _⟩ => show cc0_transform_1 (grid0.coords t) 2 * 64 + 1 * j.val = j.val; omega
  · intro k j
    show V m c main_arg2 ((((cfgM m hO).win 2).blk t).view.emb (ix3 (0 : Fin 1) k j)) = _
    refine congrArg (V m c main_arg2) (funext fun a => Fin.ext ?_)
    match a with
    | ⟨0, _⟩ => show cc0_transform_2 (grid0.coords t) 0 * 1 + 1 * 0 = t.val / 4; omega
    | ⟨1, _⟩ => show cc0_transform_2 (grid0.coords t) 1 * 2048 + 1 * k.val = k.val; omega
    | ⟨2, _⟩ => show cc0_transform_2 (grid0.coords t) 2 * 64 + 1 * j.val = j.val; omega
  · show V m (0 : Dev nD) main_arg3 (bIdx (grid0.coords t)) = V m c main_arg3 _
    obtain rfl : c = 0 := Subsingleton.elim _ _
    refine congrArg (V m (0 : Dev nD) main_arg3) (funext fun a => Fin.ext ?_)
    match a with
    | ⟨0, _⟩ => exact e0
  · refine congrArg (attn (qarr m c) (karr m c) (varr m c) (larr m c)) (funext fun a => Fin.ext ?_)
    match a with
    | ⟨0, _⟩ => show t.val / 4 = cc0_transform_3 (grid0.coords t) 0 * 1 + 1 * (y 0).val; omega
    | ⟨1, _⟩ => show t.val % 4 * 512 + (y 1).val = cc0_transform_3 (grid0.coords t) 1 * 512 + 1 * (y 1).val; omega
    | ⟨2, _⟩ => show (y 2).val = cc0_transform_3 (grid0.coords t) 2 * 64 + 1 * (y 2).val; omega

/-- What point `t` writes back is block `t` of the specification of the argument arrays. -/
theorem flushed_eq (hO : Ok m) (c : Dev nD) (t : Fin (cfgM m hO).N) :
    (dats m hO 0 c).flushed 3 t
      = (((cfgM m hO).win 3).blk t).view.read (Elt Ideal) (attn (qarr m c) (karr m c) (varr m c) (larr m c)) := by
  show ((cfgM m hO).win 3).cut (grid0.coords t) ((dats m hO 0 c).after 3 t) = _
  rw [after0_3]
  funext y
  exact flushed_at m hO c t y

set_option backward.isDefEq.respectTransparency.types false in
/-- An entry of the result lies in point `t`'s block iff each coordinate is in the block's range. -/
theorem mem_blk (hO : Ok m) (t : Fin (cfgM m hO).N) (i : S16x2048x64.Idx) :
    i ∈ (((cfgM m hO).win 3).blk t).view.set
      ↔ ∀ a : Fin 3, cc0_transform_3 (grid0.coords t) a * S1x512x64.size a ≤ (i a).val
          ∧ (i a).val < cc0_transform_3 (grid0.coords t) a * S1x512x64.size a + S1x512x64.size a := by
  have e : (((cfgM m hO).win 3).blk t).view.set = (((cfgM m hO).win 3).rect t).set := View.set_slice_whole _ _
  rw [e]
  exact Rect.mem_set_unit

/-- Entry `(b, q, d)` of the result lies in the block of point `4·b + q / 512`. -/
theorem cover (hO : Ok m) (i : S16x2048x64.Idx) :
    ∃ t : Fin (cfgM m hO).N, ((cfgM m hO).win 3).flush t = true ∧ i ∈ (((cfgM m hO).win 3).blk t).view.set := by
  have h0 : (i 0).val < 16 := (i 0).isLt
  have h1 : (i 1).val < 2048 := (i 1).isLt
  have h2 : (i 2).val < 64 := (i 2).isLt
  have hN : grid0.N = 64 := N_0
  have hlt : (i 0).val * 4 + (i 1).val / 512 < grid0.N := by omega
  obtain ⟨-, -, -, -, -, -, -, -, -, d0, d1, d2, -⟩ := tr_facts ⟨(i 0).val * 4 + (i 1).val / 512, hlt⟩
  refine ⟨⟨(i 0).val * 4 + (i 1).val / 512, hlt⟩, flush0_3 (adm m hO) _, ?_⟩
  rw [mem_blk]
  intro a
  match a with
  | ⟨0, _⟩ =>
    show cc0_transform_3 (grid0.coords ⟨(i 0).val * 4 + (i 1).val / 512, hlt⟩) 0 * 1 ≤ (i 0).val ∧ (i 0).val < cc0_transform_3 (grid0.coords ⟨(i 0).val * 4 + (i 1).val / 512, hlt⟩) 0 * 1 + 1
    rw [d0]; show ((i 0).val * 4 + (i 1).val / 512) / 4 * 1 ≤ (i 0).val ∧ (i 0).val < ((i 0).val * 4 + (i 1).val / 512) / 4 * 1 + 1; omega
  | ⟨1, _⟩ =>
    show cc0_transform_3 (grid0.coords ⟨(i 0).val * 4 + (i 1).val / 512, hlt⟩) 1 * 512 ≤ (i 1).val ∧ (i 1).val < cc0_transform_3 (grid0.coords ⟨(i 0).val * 4 + (i 1).val / 512, hlt⟩) 1 * 512 + 512
    rw [d1]; show ((i 0).val * 4 + (i 1).val / 512) % 4 * 512 ≤ (i 1).val ∧ (i 1).val < ((i 0).val * 4 + (i 1).val / 512) % 4 * 512 + 512; omega
  | ⟨2, _⟩ =>
    show cc0_transform_3 (grid0.coords ⟨(i 0).val * 4 + (i 1).val / 512, hlt⟩) 2 * 64 ≤ (i 2).val ∧ (i 2).val < cc0_transform_3 (grid0.coords ⟨(i 0).val * 4 + (i 1).val / 512, hlt⟩) 2 * 64 + 64
    rw [d2]; omega

/-- The result array after the run is the specification of the argument arrays. -/
theorem final (hO : Ok m) (c : Dev nD) :
    (dats m hO 0 c).arrAt 3 (cfgM m hO).N = attn (qarr m c) (karr m c) (varr m c) (larr m c) :=
  (dats m hO 0 c).arrAt_eq_of_cover 3 (attn (qarr m c) (karr m c) (varr m c) (larr m c)) (fun t _ => flushed_eq m hO c t) (cover m hO)

/-- The run, read: the result array at the specification of the arguments, the arguments unchanged. -/
theorem run (hO : Ok m) : θ_run defs (onTc (τ := τ) (main (F := Ideal))) ⟨m, fun _ => 0, ρ⟩ fun r => ∀ c : Dev nD,
      r.2.mem ((c.tc : Thread nD τ).loc main_v0) = attn (qarr m c) (karr m c) (varr m c) (larr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).1 3).trans (final m hO c),
      ((h c).1 0).trans (((dats m hO 0 c).arrAt_in 0 rfl _).trans ((A_eq m hO c 0).trans (V_main_arg0 m c))),
      ((h c).1 1).trans (((dats m hO 0 c).arrAt_in 1 rfl _).trans ((A_eq m hO c 1).trans (V_main_arg1 m c))),
      ((h c).1 2).trans (((dats m hO 0 c).arrAt_in 2 rfl _).trans ((A_eq m hO c 2).trans (V_main_arg2 m c))),
      ((h c).2 main_arg3 (by decide : main_arg3 ∈ Pipeline.restRefs sig spec0)).trans (V_main_arg3 m c)⟩)
    (run_main m ρ hO)

end Cert.KernelIdeal.RunValue

end
-- ==== Proof.RefValue.lean ====
/-
  The reference program's result, read at an entry, is the attention specification.

  The reference computes, for batch entry `b`, query `q`, feature `d`: the scores `Q(b,q,·) · K(b,k,·)` divided by
  √64, masked beyond the valid length of `b` by −10⁶, their softmax over the keys (maximum from −∞, exponentials,
  the sum from zero, the quotient), and the sum over the keys of the weights times `V(b,k,d)`. Stage by stage this
  is the specification's row function; the one real step is that the quotient by √64 is the product with 1/8.
-/
import proofs.«423094_j58686433132651_1_alg».proof.Proof.Gen.ReferenceIdeal.Read
import proofs.«423094_j58686433132651_1_alg».proof.Proof.Spec

noncomputable section

namespace Cert.ReferenceIdeal.RefValue

open Cert.ReferenceIdeal Cert.ReferenceIdeal.Gen Cert.ReferenceIdeal.Read Idealize.ShloMosaic Idealize.ShloMosaic.ValueIdx Cert.Attn

variable (x0 x1 x2 : (⟨S16x2048x64, .f32⟩ : BufTy).Contents (Elt Ideal)) (x3 : (⟨S16, .i32⟩ : BufTy).Contents (Elt Ideal))

/-- The masked scores at `(b, q, k)` are the specification's masked row of query `(b, q)` at key `k`. -/
theorem masked_apply (b : Fin 16) (q k : Fin 2048) :
    val_main_v10 (F := Ideal) x0 x1 x3 (ix3 b q k)
      = scoreRow (x3 (ix1 b)) (fun j => x0 (ix3 b q j)) (fun k' j => x1 (ix3 b k' j)) k := by
  rw [val_main_v10_apply, val_main_call0_v0_apply, val_main_v9_apply, val_main_v7_apply, val_main_v5_apply, val_main_v4_apply,
    val_main_v8_apply, val_main_v6_apply, val_main_v3_apply, val_main_v0_apply, val_main_v2_apply, val_main_v1_apply,
    val_main_cst_apply, val_main_call0_v1_apply, val_main_cst_0_apply]
  have eb : idx_main_v6 (idx_main_v8 (idx_main_call0_v0 (ix3 b q k))) = ix1 b :=
    funext fun a => Fin.ext (match a with | ⟨0, _⟩ => rfl)
  have el : ∀ j : Fin 64, lidx_main_v0 (ix3 b q k) j = ix3 b q j := fun j =>
    funext fun a => Fin.ext (match a with | ⟨0, _⟩ => rfl | ⟨1, _⟩ => rfl | ⟨2, _⟩ => rfl)
  have er : ∀ j : Fin 64, ridx_main_v0 (ix3 b q k) j = ix3 b k j := fun j =>
    funext fun a => Fin.ext (match a with | ⟨0, _⟩ => rfl | ⟨1, _⟩ => rfl | ⟨2, _⟩ => rfl)
  rw [eb]
  simp only [el, er]
  show Scalar.select (IntOp.cmpi .slt (BitVec.ofNat 32 k.val) (x3 (ix1 b)))
      (Ideal.div (∑ j : Fin 64, x0 (ix3 b q j) * x1 (ix3 b k j)) (Ideal.sqrt (Ideal.ofBits .f32 0x42800000#32))) fill = _
  rw [div_sqrt_64]
  rfl

/-- The reduced coordinate put back: key `k` of query `(b, q)`. -/
theorem lift_key (h : S16x2048x2048.Reduces [2] S16x2048) (b : Fin 16) (q k : Fin 2048) :
    h.lift (ix2 b q) k = ix3 b q k :=
  funext fun c => Fin.ext (match c with | ⟨0, _⟩ => rfl | ⟨1, _⟩ => rfl | ⟨2, _⟩ => rfl)

/-- The row maximum of query `(b, q)`. -/
theorem rmax_apply (b : Fin 16) (q : Fin 2048) :
    val_main_v13 (F := Ideal) x0 x1 x3 (ix2 b q) = rowMax (fun k => val_main_v10 (F := Ideal) x0 x1 x3 (ix3 b q k)) := by
  rw [val_main_v13_apply, val_main_v12_apply, val_main_cst_2_apply]
  unfold val_main_v11
  have hr : S16x2048x2048.Reduces [2] S16x2048 := by decide
  rw [Host.reduce_eq_fold_single FloatOps.maximumf _ _ reducesTo_S16x2048x2048_S16x2048_d2 hr h_S_ (ix2 b q)]
  show max negInf ((Finset.univ : Finset (Fin 2048)).fold max negInf (fun k => val_main_v10 (F := Ideal) x0 x1 x3 (hr.lift (ix2 b q) k))) = _
  unfold rowMax
  exact congrArg (fun f : Fin 2048 → EReal => max negInf ((Finset.univ : Finset (Fin 2048)).fold max negInf f))
    (funext fun k => congrArg (val_main_v10 (F := Ideal) x0 x1 x3) (lift_key hr b q k))

/-- The shifted exponentials at `(b, q, k)`. -/
theorem exps_apply (b : Fin 16) (q k : Fin 2048) :
    val_main_v17 (F := Ideal) x0 x1 x3 (ix3 b q k)
      = Ideal.exp (val_main_v10 (F := Ideal) x0 x1 x3 (ix3 b q k) - rowMax (fun k' => val_main_v10 (F := Ideal) x0 x1 x3 (ix3 b q k'))) := by
  rw [val_main_v17_apply, val_main_v16_apply, val_main_v15_apply, val_main_v14_apply]
  have e : idx_main_v14 (idx_main_v15 (ix3 b q k)) = ix2 b q :=
    funext fun a => Fin.ext (match a with | ⟨0, _⟩ => rfl | ⟨1, _⟩ => rfl)
  rw [e, rmax_apply]
  rfl

/-- The weights at `(b, q, k)` are the specification's softmax of the masked scores of query `(b, q)`. -/
theorem weights_apply (b : Fin 16) (q k : Fin 2048) :
    val_main_v21 (F := Ideal) x0 x1 x3 (ix3 b q k)
      = softRow (fun k' => val_main_v10 (F := Ideal) x0 x1 x3 (ix3 b q k')) k := by
  rw [val_main_v21_apply, val_main_v20_apply, val_main_v19_apply]
  have e : idx_main_v19 (idx_main_v20 (ix3 b q k)) = ix2 b q :=
    funext fun a => Fin.ext (match a with | ⟨0, _⟩ => rfl | ⟨1, _⟩ => rfl)
  have e2 : ∀ k' : Fin 2048, idx_main_v18 (ix2 b q) k' = ix3 b q k' := fun k' =>
    funext fun a => Fin.ext (match a with | ⟨0, _⟩ => rfl | ⟨1, _⟩ => rfl | ⟨2, _⟩ => rfl)
  rw [e, val_main_v18_apply, val_main_cst_3_apply]
  simp only [e2, exps_apply]
  show Ideal.div _ (Ideal.ofBits .f32 0x00000000#32 + _) = _
  rw [Ideal.ofBits_zero_f32, zero_add]
  rfl

/-- The result at `(b, q, d)` is the attention output of query `(b, q)` at feature `d`. -/
theorem result_apply (b : Fin 16) (q : Fin 2048) (d : Fin 64) :
    val_main_v22 (F := Ideal) x0 x1 x2 x3 (ix3 b q d)
      = attnRow (x3 (ix1 b)) (fun j => x0 (ix3 b q j)) (fun k j => x1 (ix3 b k j)) (fun k j => x2 (ix3 b k j)) d := by
  rw [val_main_v22_apply]
  refine Finset.sum_congr rfl fun k _ => ?_
  have el : lidx_main_v22 (ix3 b q d) k = ix3 b q k :=
    funext fun a => Fin.ext (match a with | ⟨0, _⟩ => rfl | ⟨1, _⟩ => rfl | ⟨2, _⟩ => rfl)
  have er : ridx_main_v22 (ix3 b q d) k = ix3 b k d :=
    funext fun a => Fin.ext (match a with | ⟨0, _⟩ => rfl | ⟨1, _⟩ => rfl | ⟨2, _⟩ => rfl)
  rw [el, er, weights_apply]
  exact congrArg (fun s => softRow s k * x2 (ix3 b k d)) (funext fun k' => masked_apply x0 x1 x3 b q k')

end Cert.ReferenceIdeal.RefValue

end
-- ==== Proof.lean ====
/-
  Masked scaled dot-product attention: a tiled kernel against the plain formula.

  For queries `Q`, keys `K`, values `V` of shape `[16, 2048, 64]` and valid lengths `L : [16]`, both programs compute

      out(b, q, d) = ∑ₖ softmaxₖ( k < L b ? (Q(b,q,·) · K(b,k,·)) · s : −10⁶ ) · V(b, k, d).

  The reference forms the whole `[16, 2048, 2048]` score array and divides it by √64; the kernel walks a
  `16 × 4` grid, at each point taking 512 query rows of one batch entry against all of that entry's keys and
  values, and multiplies the scores by the constant 1/8. Over the extended reals the quotient by √64 = 8 is the
  product with 1/8 at every value, infinities included, so no finiteness of the inputs is used; everything else
  (mask, row maximum from −∞, exponentials, row sum, quotient, the second product) is the same operation on
  both sides, and the kernel's 64 output blocks tile the result array.

  `Spec` states the row function and the whole-array function; `RefValue` reads the reference's run against it,
  `PayValue` the kernel body's stored value on a tile, `RunValue` the kernel's run over the grid.
  The kernel's index maps never read the valid-length table, so the side condition on the table under which the
  kernel's run is stated holds trivially.
-/
import proofs.«423094_j58686433132651_1_alg».proof.Defs
import proofs.«423094_j58686433132651_1_alg».proof.Proof.Gen.Kernel
import proofs.«423094_j58686433132651_1_alg».proof.Proof.Gen.Kernel.Skeleton
import proofs.«423094_j58686433132651_1_alg».proof.Proof.Gen.Kernel.Launch
import proofs.«423094_j58686433132651_1_alg».proof.Proof.Gen.Kernel.Points
import proofs.«423094_j58686433132651_1_alg».proof.Proof.Gen.Kernel.Frame
import proofs.«423094_j58686433132651_1_alg».proof.Proof.Gen.KernelIdeal
import proofs.«423094_j58686433132651_1_alg».proof.Proof.Gen.KernelIdeal.Skeleton
import proofs.«423094_j58686433132651_1_alg».proof.Proof.Gen.KernelIdeal.Launch
import proofs.«423094_j58686433132651_1_alg».proof.Proof.Gen.KernelIdeal.Points
import proofs.«423094_j58686433132651_1_alg».proof.Proof.Gen.KernelIdeal.Frame
import proofs.«423094_j58686433132651_1_alg».proof.Proof.Gen.ReferenceIdeal
import proofs.«423094_j58686433132651_1_alg».proof.Proof.Gen.ReferenceIdeal.Run
import proofs.«423094_j58686433132651_1_alg».proof.Proof.Gen.ReferenceIdeal.Read
import proofs.«423094_j58686433132651_1_alg».proof.Proof.Gen.Pre_finite_inputs
import proofs.«423094_j58686433132651_1_alg».proof.Proof.RunValue
import proofs.«423094_j58686433132651_1_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx Cert.Attn

/-- The kernel's index maps do not read the valid-length table: the table's side condition is `True`. -/
theorem ok_kernel (m : (ℓ : Loc Cert.Kernel.nD Cert.Kernel.τ Cert.Kernel.sig) → Buf (Elt Bits) ℓ) : Cert.Kernel.Gen.Ok m := by
  unfold Cert.Kernel.Gen.Ok Cert.Kernel.ok0; trivial
theorem ok_ideal (m : (ℓ : Loc Cert.KernelIdeal.nD Cert.KernelIdeal.τ Cert.KernelIdeal.sig) → Buf (Elt Ideal) ℓ) : Cert.KernelIdeal.Gen.Ok m := by
  unfold Cert.KernelIdeal.Gen.Ok Cert.KernelIdeal.ok0; trivial

theorem frame_k : Cert.frame_Kernel := fun m ρ _ => Cert.Kernel.Gen.frame m ρ (ok_kernel m)
theorem frame_ki : Cert.frame_KernelIdeal := fun m ρ _ => Cert.KernelIdeal.Gen.frame m ρ (ok_ideal m)
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the result array at the attention specification of the (agreeing) argument arrays:
    the kernel by its run over the grid, the reference by its run read stage by stage. -/
theorem algebraic : Cert.algebraic_KernelIdeal_ReferenceIdeal := by
  intro m ρ m' ρ' _ hagree
  refine ⟨fun c => attn (Cert.KernelIdeal.RunValue.qarr m c) (Cert.KernelIdeal.RunValue.karr m c)
    (Cert.KernelIdeal.RunValue.varr m c) (Cert.KernelIdeal.RunValue.larr m c),
    Cert.KernelIdeal.RunValue.run m ρ (ok_ideal m), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, (hagree c).1, (hagree c).2.1, (hagree c).2.2.1, (hagree c).2.2.2]
  funext i
  obtain ⟨b, q, d, rfl⟩ : ∃ (b : Fin 16) (q : Fin 2048) (d : Fin 64), i = ix3 b q d := ⟨cb i, cq i, cd i, eq_coords i⟩
  rw [Cert.ReferenceIdeal.RefValue.result_apply]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
